-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg4 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x256 .f32) (main_arg1 : FVec F S10000x10000 .f32) (main_arg2 : FVec F S256x256 .f32) (main_arg3 : FVec F S256 .f32) (main_arg4 : FVec F S_ .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x1 : Shape := ⟨2, ![1, 1]⟩
abbrev S400x10000 : Shape := ⟨2, ![400, 10000]⟩
abbrev S400x256 : Shape := ⟨2, ![400, 256]⟩

abbrev nBuf : Space → Nat
  | .hbm => 10
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S10000x256, .bf16⟩
  | .hbm, ⟨7, _⟩ => ⟨S1x256, .f32⟩
  | .hbm, ⟨8, _⟩ => ⟨S1x1, .f32⟩
  | .hbm, ⟨9, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S10000x256, .bf16⟩
  | .local _ .vmem, ⟨3, _⟩ => ⟨S400x10000, .f32⟩
  | .local _ .vmem, ⟨4, _⟩ => ⟨S400x10000, .f32⟩
  | .local _ .vmem, ⟨5, _⟩ => ⟨S10000x256, .bf16⟩
  | .local _ .vmem, ⟨6, _⟩ => ⟨S1x256, .f32⟩
  | .local _ .vmem, ⟨7, _⟩ => ⟨S1x1, .f32⟩
  | .local _ .vmem, ⟨8, _⟩ => ⟨S400x256, .f32⟩
  | .local _ .vmem, ⟨9, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S256x256_S256x256_1_0 : S256x256.Transposes [1, 0] S256x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S10000x256_S10000x256_0_0 : (Rect.unit (s := S10000x256) ![0, 0] S10000x256.size inb_S10000x256_S10000x256_0_0).PackedRows (EltTy.packing .bf16)
  shapeCasts_S256_S1x256 : S256.ShapeCasts S1x256
  shapeCasts_S_S1x1 : S_.ShapeCasts S1x1
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .f32 = 32 ∨ (Rect.block (s := S10000x256) S400x256.size (cc1_transform_4 i) (hinb1_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .i1⟩
  | .hbm, ⟨14, _⟩ => ⟨S10000x256, .f32⟩
  | .hbm, ⟨15, _⟩ => ⟨S10000x256, .f32⟩
  | .hbm, ⟨16, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Spec.lean ====
/-
  The graph-convolution layer as one function of its five argument arrays, entry by entry over the extended reals:
  features  feat[p, q] = Σ_k seq[p, k] · W[q, k]            (seq times the transpose of W),
  aggregate pre[r, q]  = Σ_p adj[r, p] · feat[p, q] + bias[q],
  output    out[r, q]  = pre[r, q] if pre[r, q] > 0, else a · pre[r, q]   (the parametric rectifier).
  Both programs compute exactly these sums in exactly this association, so no law of the extended reals beyond
  re-indexing a finite sum is needed to join them.
-/
import Idealize.ShloMosaic.PureOps.Ideal
import Idealize.ShloMosaic.Lib.ValueIdx

noncomputable section

namespace Cert.Gcn

open Idealize.ShloMosaic Idealize.ShloMosaic.ValueIdx

/-- The transformed features: row `p` of `seq` against row `q` of `W`. -/
def feat (seq : (⟨2, ![10000, 256]⟩ : Shape).Idx → EReal) (W : (⟨2, ![256, 256]⟩ : Shape).Idx → EReal)
    (p : Fin 10000) (q : Fin 256) : EReal :=
  ∑ k : Fin 256, seq (ix2 p k) * W (ix2 q k)

/-- The aggregated features plus the bias, before the rectifier. -/
def pre (seq : (⟨2, ![10000, 256]⟩ : Shape).Idx → EReal) (adj : (⟨2, ![10000, 10000]⟩ : Shape).Idx → EReal)
    (W : (⟨2, ![256, 256]⟩ : Shape).Idx → EReal) (bias : (⟨1, ![256]⟩ : Shape).Idx → EReal)
    (r : Fin 10000) (q : Fin 256) : EReal :=
  (∑ p : Fin 10000, adj (ix2 r p) * feat seq W p q) + bias (ix1 q)

/-- The rectifier on one value: keep it where it is positive, scale it by `a` elsewhere. -/
def prelu (a o : EReal) : EReal :=
  Scalar.select (FloatOps.cmpf (F := Ideal) (φ := .f32) .ogt o (Ideal.ofBits .f32 0x00000000#32)) o (a * o)

/-- The layer's output at row `r`, column `q`. -/
def out (seq : (⟨2, ![10000, 256]⟩ : Shape).Idx → EReal) (adj : (⟨2, ![10000, 10000]⟩ : Shape).Idx → EReal)
    (W : (⟨2, ![256, 256]⟩ : Shape).Idx → EReal) (bias : (⟨1, ![256]⟩ : Shape).Idx → EReal)
    (a : (⟨0, ![]⟩ : Shape).Idx → EReal) (r : Fin 10000) (q : Fin 256) : EReal :=
  prelu (a ix0) (pre seq adj W bias r q)

/-- The transformed features as an array. -/
def featArr (seq : (⟨2, ![10000, 256]⟩ : Shape).Idx → EReal) (W : (⟨2, ![256, 256]⟩ : Shape).Idx → EReal) :
    (⟨2, ![10000, 256]⟩ : Shape).Idx → EReal :=
  fun j => feat seq W ⟨(j 0).val, idx2_lt0 j⟩ ⟨(j 1).val, idx2_lt1 j⟩

/-- The layer's output as an array. -/
def outArr (seq : (⟨2, ![10000, 256]⟩ : Shape).Idx → EReal) (adj : (⟨2, ![10000, 10000]⟩ : Shape).Idx → EReal)
    (W : (⟨2, ![256, 256]⟩ : Shape).Idx → EReal) (bias : (⟨1, ![256]⟩ : Shape).Idx → EReal)
    (a : (⟨0, ![]⟩ : Shape).Idx → EReal) : (⟨2, ![10000, 256]⟩ : Shape).Idx → EReal :=
  fun j => out seq adj W bias a ⟨(j 0).val, idx2_lt0 j⟩ ⟨(j 1).val, idx2_lt1 j⟩

theorem featArr_ix2 (seq : (⟨2, ![10000, 256]⟩ : Shape).Idx → EReal) (W : (⟨2, ![256, 256]⟩ : Shape).Idx → EReal)
    (p : Fin 10000) (q : Fin 256) : featArr seq W (ix2 p q) = feat seq W p q := rfl

theorem outArr_ix2 (seq : (⟨2, ![10000, 256]⟩ : Shape).Idx → EReal) (adj : (⟨2, ![10000, 10000]⟩ : Shape).Idx → EReal)
    (W : (⟨2, ![256, 256]⟩ : Shape).Idx → EReal) (bias : (⟨1, ![256]⟩ : Shape).Idx → EReal)
    (a : (⟨0, ![]⟩ : Shape).Idx → EReal) (r : Fin 10000) (q : Fin 256) :
    outArr seq adj W bias a (ix2 r q) = out seq adj W bias a r q := rfl

end Cert.Gcn

end
-- ==== Proof.Payload.lean ====
/-
  What each kernel body stores, read at one entry over the extended reals.
  The feature kernel stores the product of its two loaded blocks: entry (p, q) is Σ_k x[p, k] · y[k, q]
  (a product into a zero accumulator is the bare sum; narrowing the float format changes nothing over the reals).
  The aggregation kernel stores the rectifier of (Σ_k x[r, k] · f[k, q]) + b[0, q] with the slope s[0, 0].
-/
import proofs.«143100_g1657857376663_cont_sun_m_230_2_alg».proof.Proof.Gen.KernelIdeal.Skeleton
import proofs.«143100_g1657857376663_cont_sun_m_230_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe Idealize.SL.Sem
open Idealize.ShloMosaic.ValueIdx

/-! ## The feature product's operand indices, axis by axis -/

theorem lhsF_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhsF_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhsF_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhsF_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The feature product into a zero accumulator: entry (p, q) is the sum over the shared axis. -/
theorem featMat_apply (l : FVec Ideal S10000x256 .bf16) (r : FVec Ideal S256x256 .bf16) (p : Fin 10000) (q : Fin 256) :
    matmul dot_S10000x256_S256x256_S10000x256_1_0_0_1_n_n none l r (constant S10000x256 .f32 0x00000000#32) (ix2 p q)
      = ∑ k : Fin 256, l (ix2 p k) * r (ix2 k q) := by
  refine (Ideal.matmul_constant_zero_apply dot_S10000x256_S256x256_S10000x256_1_0_0_1_n_n none l r (ix2 p q)).trans ?_
  rw [← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 p q) ((contrEquiv1 dot_S10000x256_S256x256_S10000x256_1_0_0_1_n_n 256 rfl rfl).symm k) = ix2 p k := funext fun a => Fin.ext (by
    match a with
    | ⟨0, _⟩ => exact lhsF_0 _ _
    | ⟨1, _⟩ => exact (lhsF_1 _ _).trans hk)
  have er : dot_S10000x256_S256x256_S10000x256_1_0_0_1_n_n.rhsIdx (ix2 p q) ((contrEquiv1 dot_S10000x256_S256x256_S10000x256_1_0_0_1_n_n 256 rfl rfl).symm k) = ix2 k q := funext fun a => Fin.ext (by
    match a with
    | ⟨0, _⟩ => exact (rhsF_0 _ _).trans hk
    | ⟨1, _⟩ => exact rhsF_1 _ _)
  rw [el, er]

/-! ## The aggregation product's operand indices, axis by axis -/

theorem lhsA_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhsA_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhsA_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhsA_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The aggregation product into a zero accumulator: entry (r, q) is the sum over the 10000 nodes. -/
theorem aggMat_apply (l : FVec Ideal S400x10000 .bf16) (f : FVec Ideal S10000x256 .bf16) (r : Fin 400) (q : Fin 256) :
    matmul dot_S400x10000_S10000x256_S400x256_1_0_0_1_n_n none l f (constant S400x256 .f32 0x00000000#32) (ix2 r q)
      = ∑ k : Fin 10000, l (ix2 r k) * f (ix2 k q) := by
  refine (Ideal.matmul_constant_zero_apply dot_S400x10000_S10000x256_S400x256_1_0_0_1_n_n none l f (ix2 r q)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 r q) ((contrEquiv1 dot_S400x10000_S10000x256_S400x256_1_0_0_1_n_n 10000 rfl rfl).symm k) = ix2 r k := funext fun a => Fin.ext (by
    match a with
    | ⟨0, _⟩ => exact lhsA_0 _ _
    | ⟨1, _⟩ => exact (lhsA_1 _ _).trans hk)
  have er : dot_S400x10000_S10000x256_S400x256_1_0_0_1_n_n.rhsIdx (ix2 r q) ((contrEquiv1 dot_S400x10000_S10000x256_S400x256_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

/-! ## The two payloads at an entry -/

/-- What the feature kernel stores, at entry (p, q): the row of its first block against the column of its second. -/
theorem feat_pay (x : Vec Ideal S10000x256 .f32) (y : Vec Ideal S256x256 .f32) (p : Fin 10000) (q : Fin 256) :
    k0_pay1 (F := Ideal) x y (ix2 p q) = ∑ k : Fin 256, x (ix2 p k) * y (ix2 k q) := by
  refine (featMat_apply (truncf .bf16 x bitsLt_bf16_f32) (truncf .bf16 (shapeCast S256x256 y shapeCasts_S256x256_S256x256) bitsLt_bf16_f32) p q).trans ?_
  rw [shapeCast_self]
  rfl

/-- The rectifier applied entrywise, as the kernel spells it over whole blocks. -/
theorem prelu_vec (M B : FVec Ideal S400x256 .f32) (a : EReal) (j : S400x256.Idx) :
    select (cmpf .ogt (addf M B) (broadcast S400x256 (Scalar.ofBits (F := Ideal) .f32 0x00000000#32))) (addf M B)
        (mulf (broadcast S400x256 a) (addf M B)) j
      = Cert.Gcn.prelu a (M j + B j) := rfl

/-- What the aggregation kernel stores, at entry (r, q). -/
theorem agg_pay (x : Vec Ideal S400x10000 .f32) (f : Vec Ideal S10000x256 .bf16) (b : Vec Ideal S1x256 .f32)
    (s : Vec Ideal S1x1 .f32) (r : Fin 400) (q : Fin 256) :
    k1_pay1 (F := Ideal) x f b s (ix2 r q)
      = Cert.Gcn.prelu (s (ix2 (0 : Fin 1) (0 : Fin 1))) ((∑ k : Fin 10000, x (ix2 r k) * f (ix2 k q)) + b (ix2 (0 : Fin 1) q)) := by
  refine (prelu_vec
    (matmul dot_S400x10000_S10000x256_S400x256_1_0_0_1_n_n none (truncf .bf16 x bitsLt_bf16_f32) (shapeCast S10000x256 f shapeCasts_S10000x256_S10000x256) (constant S400x256 .f32 0x00000000#32))
    (broadcastTo S400x256 (shapeCast S1x256 b shapeCasts_S1x256_S1x256) broadcasts_S1x256_S400x256)
    (extractAt ![0, 0] s inpos_S1x1_p0_0) (ix2 r q)).trans ?_
  rw [shapeCast_self f, shapeCast_self b]
  have hM := aggMat_apply (truncf .bf16 x bitsLt_bf16_f32) f r q
  have hB := broadcastTo_1b_ab_apply b broadcasts_S1x256_S400x256 r q
  have ha : extractAt ![0, 0] s inpos_S1x1_p0_0 = s (ix2 (0 : Fin 1) (0 : Fin 1)) :=
    congrArg s (funext fun a => Fin.ext (by match a with | ⟨0, _⟩ => rfl | ⟨1, _⟩ => rfl))
  rw [hM, hB, ha]
  rfl

end Cert.KernelIdeal.Payload

end
-- ==== Proof.Features.lean ====
/-
  The first region (one grid point, every window the whole of its array) leaves the feature array: the region finds
  `seq` in its first window and the transpose of `W` in its second (the one host operation before it), and its body
  stores their product, so entry (p, q) of the array it writes back is Σ_k seq[p, k] · W[q, k].
-/
import proofs.«143100_g1657857376663_cont_sun_m_230_2_alg».proof.Proof.Gen.KernelIdeal.Frame
import proofs.«143100_g1657857376663_cont_sun_m_230_2_alg».proof.Proof.Payload
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Features

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

theorem zeros2 : (![0, 0] : Fin 2 → Nat) = fun _ => 0 := funext fun a => by fin_cases a <;> rfl

/-! ## What the region finds in its two input arrays -/

/-- The host operation before the region does not write `seq`. -/
theorem entry_seq (c : Dev nD) : V1 m ρ c main_arg0 = m ((c : Thread nD τ).loc main_arg0) := by
  show StableHlo.after hostOps0 (W0 m ρ c) (Proc.devRef .tc main_arg0) = _
  after_results <;> rfl

/-- The host operation before the region writes the transpose of `W`. -/
theorem entry_wt (c : Dev nD) :
    V1 m ρ c main_v0 = transpose S256x256 [1, 0] (m ((c : Thread nD τ).loc main_arg2)) transposes_S256x256_S256x256_1_0 := by
  show StableHlo.after hostOps0 (W0 m ρ c) (Proc.devRef .tc main_v0) = _
  after_results <;> rfl

/-! ## One block: the product of a block that is `seq` and a block that is the transpose of `W` -/

/-- The stored product at an entry `j`, against the feature array at an entry `i` with the same coordinates. -/
theorem feat_block (X : S10000x256.Idx → EReal) (Wm : S256x256.Idx → EReal)
    (x : Vec Ideal S10000x256 .f32) (y : Vec Ideal S256x256 .f32)
    (hx : ∀ (p : Fin 10000) (k : Fin 256), x (ix2 p k) = X (ix2 p k))
    (hy : ∀ (k : Fin 256) (q : Fin 256), y (ix2 k q) = Wm (ix2 q k))
    (j i : S10000x256.Idx) (h0 : (i 0).val = (j 0).val) (h1 : (i 1).val = (j 1).val) :
    k0_pay1 (F := Ideal) x y j = Cert.Gcn.featArr X Wm i := by
  obtain ⟨p, q, rfl⟩ : ∃ (p : Fin 10000) (q : Fin 256), j = ix2 p q := ⟨j 0, j 1, eq_ix2 j⟩
  have hi : i = ix2 p q := Shape.idx_ext₂ h0 h1
  subst hi
  refine (Payload.feat_pay x y p q).trans ?_
  refine Eq.trans ?_ (Cert.Gcn.featArr_ix2 X Wm p q).symm
  unfold Cert.Gcn.feat
  exact Finset.sum_congr rfl fun k _ => by rw [hx p k, hy k q]

/-- The printed index maps over the one grid point: every window sits at block index zero on both axes. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the feature array read through the output window's block. -/
theorem feat_flushed (c : Dev nD) (t : Fin cfg0.N) :
    (dat0 (V1 m ρ) c).flushed 2 t = ((cfg0.win 2).blk t).view.read (Elt Ideal)
      (Cert.Gcn.featArr (m ((c : Thread nD τ).loc main_arg0)) (m ((c : Thread nD τ).loc main_arg2))) := by
  show (cfg0.win 2).cut (grid0.coords t) ((dat0 (V1 m ρ) c).after 2 t) = _
  rw [after0_2]
  unfold out0_2
  rw [View.canon_unit_zero zeros2]
  simp only [View.ld_unit_zero (S := S10000x256) zeros2, View.ld_unit_zero (S := S256x256) zeros2]
  obtain ⟨e00, e01, e10, e11, e20, e21⟩ := idx_zero t
  funext j
  show k0_pay1 (F := Ideal) (iblk0 (V1 m ρ) c 0 t) (iblk0 (V1 m ρ) c 1 t) j
    = Cert.Gcn.featArr (m ((c : Thread nD τ).loc main_arg0)) (m ((c : Thread nD τ).loc main_arg2)) (((cfg0.win 2).blk t).view.emb j)
  refine feat_block (m ((c : Thread nD τ).loc main_arg0)) (m ((c : Thread nD τ).loc main_arg2))
    (iblk0 (V1 m ρ) c 0 t) (iblk0 (V1 m ρ) c 1 t) ?_ ?_ j (((cfg0.win 2).blk t).view.emb j) ?_ ?_
  · intro p k
    show V1 m ρ c main_arg0 (((cfg0.win 0).blk t).view.emb (ix2 p k)) = _
    rw [entry_seq]
    refine congrArg _ (Shape.idx_ext₂ ?_ ?_)
    · show win0_0.index t (0 : Fin 2) * 10000 + 1 * p.val = p.val; omega
    · show win0_0.index t (1 : Fin 2) * 256 + 1 * k.val = k.val; omega
  · intro k q
    show V1 m ρ c main_v0 (((cfg0.win 1).blk t).view.emb (ix2 k q)) = _
    rw [entry_wt]
    have e : ((cfg0.win 1).blk t).view.emb (ix2 k q) = ix2 k q := Shape.idx_ext₂
      (by show win0_1.index t (0 : Fin 2) * 256 + 1 * k.val = k.val; omega)
      (by show win0_1.index t (1 : Fin 2) * 256 + 1 * q.val = q.val; omega)
    rw [e]
    exact transpose_ix2_apply _ _ k q
  · show win0_2.index t (0 : Fin 2) * 10000 + 1 * (j 0).val = (j 0).val; omega
  · show win0_2.index t (1 : Fin 2) * 256 + 1 * (j 1).val = (j 1).val; omega

/-- An index of the feature array is in the point's block iff each coordinate is in the block's range on its axis. -/
theorem mem_blk (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v1).slice (win0_2.rect t)).set ↔ _
  rw [View.set_slice_whole, Rect.mem_set_unit]
  exact Iff.rfl

/-- THE FEATURE ARRAY after the region: Σ_k seq[p, k] · W[q, k] at every entry (p, q). -/
theorem feat_array (c : Dev nD) :
    (dat0 (V1 m ρ) c).arrAt 2 cfg0.N
      = Cert.Gcn.featArr (m ((c : Thread nD τ).loc main_arg0)) (m ((c : Thread nD τ).loc main_arg2)) := by
  refine (dat0 (V1 m ρ) c).arrAt_eq_of_cover 2 _ (fun t _ => feat_flushed m ρ c t) fun i => ?_
  refine ⟨t0_0, flush0_2 t0_0, ?_⟩
  obtain ⟨-, -, -, -, e20, e21⟩ := idx_zero t0_0
  rw [mem_blk]
  intro a
  match a with
  | ⟨0, _⟩ => show win0_2.index t0_0 (0 : Fin 2) * 10000 ≤ (i 0).val ∧ (i 0).val < win0_2.index t0_0 (0 : Fin 2) * 10000 + 10000; have hi : (i 0).val < 10000 := (i 0).isLt; omega
  | ⟨1, _⟩ => show win0_2.index t0_0 (1 : Fin 2) * 256 ≤ (i 1).val ∧ (i 1).val < win0_2.index t0_0 (1 : Fin 2) * 256 + 256; have hi : (i 1).val < 256 := (i 1).isLt; omega

end Cert.KernelIdeal.Features

end
-- ==== Proof.Aggregate.lean ====
/-
  The second region (25 grid points; point t takes rows 400·t … 400·t + 399 of the adjacency and writes the same rows
  of the result) leaves the layer's output. It finds the adjacency as launched, the feature array the first region
  left, and the bias and the slope re-laid by the two host operations between the regions as a [1, 256] row and a
  [1, 1] cell. Its body stores the rectifier of (block of adjacency rows) · features + bias, so the rows the 25 points
  write back tile the result array with the layer's output.
-/
import proofs.«143100_g1657857376663_cont_sun_m_230_2_alg».proof.Proof.Gen.KernelIdeal.Frame
import proofs.«143100_g1657857376663_cont_sun_m_230_2_alg».proof.Proof.Payload
import proofs.«143100_g1657857376663_cont_sun_m_230_2_alg».proof.Proof.Features
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Aggregate

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

/-! ## What the region finds in its four input arrays -/

/-- No host operation and no earlier region writes the adjacency. -/
theorem entry_adj (c : Dev nD) : V3 m ρ c main_arg1 = m ((c : Thread nD τ).loc main_arg1) :=
  calc V3 m ρ c main_arg1
    _ = W2 m ρ c (Proc.devRef .tc main_arg1) := by
          show StableHlo.after hostOps1 (W2 m ρ c) (Proc.devRef .tc main_arg1) = _
          after_results <;> rfl
    _ = W1 m ρ c (Proc.devRef .tc main_arg1) := W2_of_ne m ρ c main_arg1 (by decide)
    _ = m ((c : Thread nD τ).loc main_arg1) := by
          show StableHlo.after hostOps0 (W0 m ρ c) (Proc.devRef .tc main_arg1) = _
          after_results <;> rfl

/-- The second window's array is the first region's output: the feature array. -/
theorem entry_feat (c : Dev nD) :
    V3 m ρ c main_v1 = Cert.Gcn.featArr (m ((c : Thread nD τ).loc main_arg0)) (m ((c : Thread nD τ).loc main_arg2)) :=
  calc V3 m ρ c main_v1
    _ = W2 m ρ c (Proc.devRef .tc main_v1) := by
          show StableHlo.after hostOps1 (W2 m ρ c) (Proc.devRef .tc main_v1) = _
          after_results <;> rfl
    _ = (dat0 (V1 m ρ) c).arrAt 2 cfg0.N := W2_arr m ρ c 2
    _ = _ := Features.feat_array m ρ c

/-- The bias as launched: neither region nor the first host operation writes it. -/
theorem bias_kept (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-- The slope as launched. -/
theorem slope_kept (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

/-- The third window's array is the bias re-laid as one row. -/
theorem entry_bias (c : Dev nD) :
    V3 m ρ c main_v2 = shapeCast S1x256 (m ((c : Thread nD τ).loc main_arg3)) shapeCasts_S256_S1x256 := by
  rw [← bias_kept m ρ c]
  show StableHlo.after hostOps1 (W2 m ρ c) (Proc.devRef .tc main_v2) = _
  after_results <;> rfl

/-- The fourth window's array is the slope re-laid as one cell. -/
theorem entry_slope (c : Dev nD) :
    V3 m ρ c main_v3 = shapeCast S1x1 (m ((c : Thread nD τ).loc main_arg4)) shapeCasts_S_S1x1 := by
  rw [← slope_kept m ρ c]
  show StableHlo.after hostOps1 (W2 m ρ c) (Proc.devRef .tc main_v3) = _
  after_results <;> rfl

/-- A scalar re-laid as a [1, 1] cell reads the scalar. -/
theorem cell_apply (a : S_.Idx → EReal) : shapeCast S1x1 a shapeCasts_S_S1x1 (ix2 (0 : Fin 1) (0 : Fin 1)) = a ix0 :=
  shapeCast_apply a shapeCasts_S_S1x1 _ ix0 (by decide)

/-! ## One block of output rows -/

/-- The stored block at an entry `j`, against the layer's output at the entry `i` that lies `T` blocks of 400 rows
    further down: the adjacency block holds rows 400·T …, the other three blocks are whole arrays. -/
theorem agg_block (seq : S10000x256.Idx → EReal) (adj : S10000x10000.Idx → EReal) (Wm : S256x256.Idx → EReal)
    (bias : S256.Idx → EReal) (a : S_.Idx → EReal)
    (x : Vec Ideal S400x10000 .f32) (f : Vec Ideal S10000x256 .bf16) (b : Vec Ideal S1x256 .f32) (s : Vec Ideal S1x1 .f32)
    (T : Nat)
    (hx : ∀ (r : Fin 400) (k : Fin 10000) (R : Fin 10000), R.val = T * 400 + r.val → x (ix2 r k) = adj (ix2 R k))
    (hf : ∀ (k : Fin 10000) (q : Fin 256), f (ix2 k q) = Cert.Gcn.feat seq Wm k q)
    (hb : ∀ q : Fin 256, b (ix2 (0 : Fin 1) q) = bias (ix1 q))
    (hs : s (ix2 (0 : Fin 1) (0 : Fin 1)) = a ix0)
    (j : S400x256.Idx) (i : S10000x256.Idx) (h0 : (i 0).val = T * 400 + (j 0).val) (h1 : (i 1).val = (j 1).val) :
    k1_pay1 (F := Ideal) x f b s j = Cert.Gcn.outArr seq adj Wm bias a i := by
  obtain ⟨r, q, rfl⟩ : ∃ (r : Fin 400) (q : Fin 256), j = ix2 r q := ⟨j 0, j 1, eq_ix2 j⟩
  obtain ⟨R, q', rfl⟩ : ∃ (R : Fin 10000) (q' : Fin 256), i = ix2 R q' := ⟨i 0, i 1, eq_ix2 i⟩
  have hq : q' = q := Fin.ext h1
  subst hq
  refine (Payload.agg_pay x f b s r q').trans ?_
  refine Eq.trans ?_ (Cert.Gcn.outArr_ix2 seq adj Wm bias a R q').symm
  unfold Cert.Gcn.out Cert.Gcn.pre
  rw [hs, hb q']
  refine congrArg (fun z => Cert.Gcn.prelu (a ix0) (z + bias (ix1 q'))) ?_
  exact Finset.sum_congr rfl fun k _ => by rw [hx r k R h0, hf k q']

/-- The printed index maps over the 25 grid points: the adjacency window and the output window sit at row block t,
    every other window at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is the layer's output read through the output window's block at `t`. -/
theorem out_flushed (c : Dev nD) (t : Fin cfg1.N) :
    (dat1 (V3 m ρ) c).flushed 4 t = ((cfg1.win 4).blk t).view.read (Elt Ideal)
      (Cert.Gcn.outArr (m ((c : Thread nD τ).loc main_arg0)) (m ((c : Thread nD τ).loc main_arg1))
        (m ((c : Thread nD τ).loc main_arg2)) (m ((c : Thread nD τ).loc main_arg3)) (m ((c : Thread nD τ).loc main_arg4))) := by
  show (cfg1.win 4).cut (grid1.coords t) ((dat1 (V3 m ρ) c).after 4 t) = _
  rw [after1_4]
  unfold out1_4
  rw [View.canon_unit_zero Features.zeros2]
  simp only [View.ld_unit_zero (S := S400x10000) Features.zeros2, View.ld_unit_zero (S := S10000x256) Features.zeros2,
    View.ld_unit_zero (S := S1x256) Features.zeros2, View.ld_unit_zero (S := S1x1) Features.zeros2]
  obtain ⟨e00, e01, e10, e11, e20, e21, e30, e31, e40, e41⟩ := idx_facts t
  funext j
  show k1_pay1 (F := Ideal) (iblk1 (V3 m ρ) c 0 t) (iblk1 (V3 m ρ) c 1 t) (iblk1 (V3 m ρ) c 2 t) (iblk1 (V3 m ρ) c 3 t) j
    = Cert.Gcn.outArr (m ((c : Thread nD τ).loc main_arg0)) (m ((c : Thread nD τ).loc main_arg1))
        (m ((c : Thread nD τ).loc main_arg2)) (m ((c : Thread nD τ).loc main_arg3)) (m ((c : Thread nD τ).loc main_arg4))
        (((cfg1.win 4).blk t).view.emb j)
  refine agg_block (m ((c : Thread nD τ).loc main_arg0)) (m ((c : Thread nD τ).loc main_arg1))
    (m ((c : Thread nD τ).loc main_arg2)) (m ((c : Thread nD τ).loc main_arg3)) (m ((c : Thread nD τ).loc main_arg4))
    (iblk1 (V3 m ρ) c 0 t) (iblk1 (V3 m ρ) c 1 t) (iblk1 (V3 m ρ) c 2 t) (iblk1 (V3 m ρ) c 3 t) t.val
    ?_ ?_ ?_ ?_ j (((cfg1.win 4).blk t).view.emb j) ?_ ?_
  · intro r k R hR
    show V3 m ρ c main_arg1 (((cfg1.win 0).blk t).view.emb (ix2 r k)) = _
    rw [entry_adj]
    refine congrArg _ (Shape.idx_ext₂ ?_ ?_)
    · show win1_0.index t (0 : Fin 2) * 400 + 1 * r.val = R.val; omega
    · show win1_0.index t (1 : Fin 2) * 10000 + 1 * k.val = k.val; omega
  · intro k q
    show V3 m ρ c main_v1 (((cfg1.win 1).blk t).view.emb (ix2 k q)) = _
    rw [entry_feat]
    have e : ((cfg1.win 1).blk t).view.emb (ix2 k q) = ix2 k q := Shape.idx_ext₂
      (by show win1_1.index t (0 : Fin 2) * 10000 + 1 * k.val = k.val; omega)
      (by show win1_1.index t (1 : Fin 2) * 256 + 1 * q.val = q.val; omega)
    rw [e]
    exact Cert.Gcn.featArr_ix2 _ _ k q
  · intro q
    show V3 m ρ c main_v2 (((cfg1.win 2).blk t).view.emb (ix2 (0 : Fin 1) q)) = _
    rw [entry_bias]
    have e : ((cfg1.win 2).blk t).view.emb (ix2 (0 : Fin 1) q) = ix2 (0 : Fin 1) q := Shape.idx_ext₂
      (by show win1_2.index t (0 : Fin 2) * 1 + 1 * 0 = 0; omega)
      (by show win1_2.index t (1 : Fin 2) * 256 + 1 * q.val = q.val; omega)
    rw [e]
    exact shapeCast_a_1a_apply _ _ (0 : Fin 1) q
  · show V3 m ρ c main_v3 (((cfg1.win 3).blk t).view.emb (ix2 (0 : Fin 1) (0 : Fin 1))) = _
    rw [entry_slope]
    have e : ((cfg1.win 3).blk t).view.emb (ix2 (0 : Fin 1) (0 : Fin 1)) = ix2 (0 : Fin 1) (0 : Fin 1) := Shape.idx_ext₂
      (by show win1_3.index t (0 : Fin 2) * 1 + 1 * 0 = 0; omega)
      (by show win1_3.index t (1 : Fin 2) * 1 + 1 * 0 = 0; omega)
    rw [e]
    exact cell_apply _
  · show win1_4.index t (0 : Fin 2) * 400 + 1 * (j 0).val = t.val * 400 + (j 0).val; omega
  · show win1_4.index t (1 : Fin 2) * 256 + 1 * (j 1).val = (j 1).val; omega

/-- An index of the result array is in point `t`'s block iff each coordinate is in the block's range on its axis. -/
theorem mem_blk (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_v4).slice (win1_4.rect t)).set ↔ _
  rw [View.set_slice_whole, Rect.mem_set_unit]
  exact Iff.rfl

/-- THE RESULT ARRAY after the region: the layer's output at every entry (row r is written by point r / 400). -/
theorem out_array (c : Dev nD) :
    (dat1 (V3 m ρ) c).arrAt 4 cfg1.N
      = Cert.Gcn.outArr (m ((c : Thread nD τ).loc main_arg0)) (m ((c : Thread nD τ).loc main_arg1))
          (m ((c : Thread nD τ).loc main_arg2)) (m ((c : Thread nD τ).loc main_arg3)) (m ((c : Thread nD τ).loc main_arg4)) := by
  refine (dat1 (V3 m ρ) c).arrAt_eq_of_cover 4 _ (fun t _ => out_flushed m ρ c t) fun i => ?_
  have hi0 : (i 0).val < 10000 := (i 0).isLt
  have hi1 : (i 1).val < 256 := (i 1).isLt
  have hN : cfg1.N = 25 := N_1
  let t : Fin cfg1.N := ⟨(i 0).val / 400, by rw [hN]; omega⟩
  have htv : t.val = (i 0).val / 400 := rfl
  refine ⟨t, flush1_4 t, ?_⟩
  obtain ⟨-, -, -, -, -, -, -, -, e40, e41⟩ := idx_facts t
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 256 ≤ (i 1).val ∧ (i 1).val < win1_4.index t (1 : Fin 2) * 256 + 256; omega

end Cert.KernelIdeal.Aggregate

end
-- ==== Proof.RefValue.lean ====
/-
  The reference computes the same function: its last stage, read one operation at a time, is at entry (r, q) the
  rectifier of Σ_p adj[r, p] · (Σ_k seq[p, k] · W[q, k]) + bias[q] with the slope as launched. The transpose it takes
  of W first only swaps the two coordinates the inner sum reads W at.
-/
import proofs.«143100_g1657857376663_cont_sun_m_230_2_alg».proof.Defs
import proofs.«143100_g1657857376663_cont_sun_m_230_2_alg».proof.Proof.Gen.ReferenceIdeal.Run
import proofs.«143100_g1657857376663_cont_sun_m_230_2_alg».proof.Proof.Gen.ReferenceIdeal.Read
import proofs.«143100_g1657857376663_cont_sun_m_230_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The reference's features at entry (p, q). -/
theorem feat_eq (x0 : S10000x256.Idx → EReal) (x2 : S256x256.Idx → EReal) (p : Fin 10000) (q : Fin 256) :
    val_main_v1 (F := Ideal) x0 x2 (ix2 p q) = Cert.Gcn.feat x0 x2 p q := by
  rw [val_main_v1_apply]
  unfold Cert.Gcn.feat
  refine Finset.sum_congr rfl fun k _ => ?_
  rw [val_main_v0_apply]
  have el : lidx_main_v1 (ix2 p q) k = ix2 p k := funext fun a => Fin.ext (by
    match a with
    | ⟨0, _⟩ => rfl
    | ⟨1, _⟩ => rfl)
  have er : idx_main_v0 (ridx_main_v1 (ix2 p q) k) = ix2 q k := funext fun a => Fin.ext (by
    match a with
    | ⟨0, _⟩ => rfl
    | ⟨1, _⟩ => rfl)
  rw [el, er]

/-- The reference's value before the rectifier at entry (r, q). -/
theorem pre_eq (x0 : S10000x256.Idx → EReal) (x1 : S10000x10000.Idx → EReal) (x2 : S256x256.Idx → EReal)
    (x3 : S256.Idx → EReal) (r : Fin 10000) (q : Fin 256) :
    val_main_v5 (F := Ideal) x0 x1 x2 x3 (ix2 r q) = Cert.Gcn.pre x0 x1 x2 x3 r q := by
  rw [val_main_v5_apply, val_main_v2_apply, val_main_v4_apply, val_main_v3_apply]
  unfold Cert.Gcn.pre
  have eb : idx_main_v3 (idx_main_v4 (ix2 r q)) = ix1 q := funext fun a => Fin.ext (by
    match a with
    | ⟨0, _⟩ => rfl)
  rw [eb]
  refine congrArg (fun z => z + x3 (ix1 q)) ?_
  refine Finset.sum_congr rfl fun k _ => ?_
  have el : lidx_main_v2 (ix2 r q) k = ix2 r k := funext fun a => Fin.ext (by
    match a with
    | ⟨0, _⟩ => rfl
    | ⟨1, _⟩ => rfl)
  have er : ridx_main_v2 (ix2 r q) k = ix2 k q := funext fun a => Fin.ext (by
    match a with
    | ⟨0, _⟩ => rfl
    | ⟨1, _⟩ => rfl)
  rw [el, er, feat_eq]

/-- The reference's result array is the layer's output. -/
theorem result_eq (x0 : S10000x256.Idx → EReal) (x1 : S10000x10000.Idx → EReal) (x2 : S256x256.Idx → EReal)
    (x3 : S256.Idx → EReal) (x4 : S_.Idx → EReal) :
    val_main_v10 (F := Ideal) x0 x1 x2 x3 x4 = Cert.Gcn.outArr x0 x1 x2 x3 x4 := by
  funext j
  obtain ⟨r, q, rfl⟩ : ∃ (r : Fin 10000) (q : Fin 256), j = ix2 r q := ⟨j 0, j 1, eq_ix2 j⟩
  rw [val_main_v10_apply, val_main_v9_apply, val_main_v7_apply, val_main_v8_apply, val_main_v6_apply, val_main_cst_apply, pre_eq]
  rfl

end Cert.ReferenceIdeal.RefValue

end
-- ==== Proof.lean ====
/-
  The certificate of one graph-convolution layer, out = PReLU(adj · (seq · Wᵀ) + bias), against its jnp reference, over
  the extended reals.

  The kernel runs two regions. The first multiplies `seq` by the transpose of `W` (taken by one host operation) in a
  single grid point and leaves the feature array, entry (p, q) = Σ_k seq[p, k] · W[q, k] (Proof/Features.lean). The
  second walks 25 blocks of 400 adjacency rows; each point multiplies its rows by the whole feature array, adds the
  bias row, applies the rectifier with the launched slope, and writes its 400 result rows back; the 25 blocks tile the
  result (Proof/Aggregate.lean). Narrowing a float format is the identity over the reals and a product into a zero
  accumulator is the bare sum (Proof/Payload.lean), so the result array is the function `Cert.Gcn.outArr` of the five
  arguments (Proof/Spec.lean). The reference's two contractions, its bias broadcast and its select compute the same
  sums in the same association (Proof/RefValue.lean), so the two results agree entry by entry with no appeal to
  finiteness of the inputs: only re-indexing of finite sums is used.

  The three programs' runs: both kernel frames are the generated several-region frames; the reference's is its
  generated run with the result dropped; the idealization rewrote nothing, so `preserves` is trivial. The idealized
  kernel's run with its result array named is Proof/KernelRun.lean.
-/
import proofs.«143100_g1657857376663_cont_sun_m_230_2_alg».proof.Defs
import proofs.«143100_g1657857376663_cont_sun_m_230_2_alg».proof.Proof.Gen.Kernel
import proofs.«143100_g1657857376663_cont_sun_m_230_2_alg».proof.Proof.Gen.Kernel.Skeleton
import proofs.«143100_g1657857376663_cont_sun_m_230_2_alg».proof.Proof.Gen.Kernel.Launch
import proofs.«143100_g1657857376663_cont_sun_m_230_2_alg».proof.Proof.Gen.Kernel.Points
import proofs.«143100_g1657857376663_cont_sun_m_230_2_alg».proof.Proof.Gen.Kernel.Frame
import proofs.«143100_g1657857376663_cont_sun_m_230_2_alg».proof.Proof.Gen.KernelIdeal
import proofs.«143100_g1657857376663_cont_sun_m_230_2_alg».proof.Proof.Gen.KernelIdeal.Skeleton
import proofs.«143100_g1657857376663_cont_sun_m_230_2_alg».proof.Proof.Gen.KernelIdeal.Launch
import proofs.«143100_g1657857376663_cont_sun_m_230_2_alg».proof.Proof.Gen.KernelIdeal.Points
import proofs.«143100_g1657857376663_cont_sun_m_230_2_alg».proof.Proof.Gen.KernelIdeal.Frame
import proofs.«143100_g1657857376663_cont_sun_m_230_2_alg».proof.Proof.Gen.ReferenceIdeal
import proofs.«143100_g1657857376663_cont_sun_m_230_2_alg».proof.Proof.Gen.ReferenceIdeal.Run
import proofs.«143100_g1657857376663_cont_sun_m_230_2_alg».proof.Proof.Gen.ReferenceIdeal.Read
import proofs.«143100_g1657857376663_cont_sun_m_230_2_alg».proof.Proof.Gen.Pre_finite_inputs
import proofs.«143100_g1657857376663_cont_sun_m_230_2_alg».proof.Proof.KernelRun
import proofs.«143100_g1657857376663_cont_sun_m_230_2_alg».proof.Proof.Aggregate
import proofs.«143100_g1657857376663_cont_sun_m_230_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame over its two regions. -/
theorem frame_k : Cert.frame_Kernel := fun m ρ _ => Cert.Kernel.Gen.frame m ρ

/-- The idealized kernel runs and keeps its arguments: the generated frame over its two regions. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer's output in their result array:
    the kernel's by its two regions' write-backs, the reference's by its run read one operation at a time. -/
theorem algebraic : Cert.algebraic_KernelIdeal_ReferenceIdeal := by
  intro m ρ m' ρ' _ hagree
  refine ⟨fun c => Cert.Gcn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Aggregate.out_array m ρ c), (h c).2⟩)
      (Cert.KernelIdeal.Named.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
